-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S_ : Shape := ⟨0, ![]⟩
abbrev S16384 : Shape := ⟨1, ![16384]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  reducesTo_S16384x2048_S16384_d1 : S16384x2048.ReducesTo [1] S16384
  bcast_S_S16384 : S_.BroadcastsInDim S16384 (![] : Fin 0 → Fin S16384.rank)
  reducesTo_S16384_S_d0 : S16384.ReducesTo [0] S_

variable [Facts]

def fn_part1 {F : FTy → Type} [FloatOps F] (main_v14 : IVec S_ 1) (main_v15 : FVec F S16384x2048 .f32) (main_cst_5 : FVec F S_ .f32) : IVec S_ 1 :=
  let main_v16 : FVec F S16384 .f32 := (fun x v => Host.reduceAdd x v reducesTo_S16384x2048_S16384_d1 h_S_) main_v15 main_cst_5
  let main_cst_6 : FVec F S_ .f32 := constant S_ .f32 0x00000000#32
  let main_v17 : FVec F S16384 .f32 := broadcastInDim S16384 ![] bcast_S_S16384 main_cst_6
  let main_v18 : IVec S16384 1 := cmpf .ogt main_v16 main_v17
  let main_c_7 : IVec S_ 1 := constantI S_ 1 1#1
  let main_v19 : IVec S_ 1 := (fun x v => Host.reduce IntOp.andi x v reducesTo_S16384_S_d0 h_S_) main_v18 main_c_7
  let main_v20 : IVec S_ 1 := andi main_v14 main_v19
  main_v20

def fn {F : FTy → Type} [FloatOps F] (main_arg0 : FVec F S16384x2048 .f32) (main_arg1 : FVec F S16384x2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S16384x2048 .f32 := Host.absf main_arg1
  let main_cst_0 : FVec F S_ .f32 := constant S_ .f32 0x7F800000#32
  let main_v5 : FVec F S16384x2048 .f32 := broadcastInDim S16384x2048 ![] bcast_S_S16384x2048 main_cst_0
  let main_v6 : IVec S16384x2048 1 := cmpf .olt main_v4 main_v5
  let main_c_1 : IVec S_ 1 := constantI S_ 1 1#1
  let main_v7 : IVec S_ 1 := (fun x v => Host.reduce IntOp.andi x v reducesTo_S16384x2048_S_d0_1 h_S_) main_v6 main_c_1
  let main_v8 : IVec S_ 1 := andi main_v3 main_v7
  let main_v9 : FVec F S16384x2048 .f32 := mulf main_arg0 main_arg0
  let main_cst_2 : FVec F S_ .f32 := constant S_ .f32 0x00000000#32
  let main_v10 : FVec F S16384 .f32 := (fun x v => Host.reduceAdd x v reducesTo_S16384x2048_S16384_d1 h_S_) main_v9 main_cst_2
  let main_cst_3 : FVec F S_ .f32 := constant S_ .f32 0x00000000#32
  let main_v11 : FVec F S16384 .f32 := broadcastInDim S16384 ![] bcast_S_S16384 main_cst_3
  let main_v12 : IVec S16384 1 := cmpf .ogt main_v10 main_v11
  let main_c_4 : IVec S_ 1 := constantI S_ 1 1#1
  let main_v13 : IVec S_ 1 := (fun x v => Host.reduce IntOp.andi x v reducesTo_S16384_S_d0 h_S_) main_v12 main_c_4
  let main_v14 : IVec S_ 1 := andi main_v8 main_v13
  let main_v15 : FVec F S16384x2048 .f32 := mulf main_arg1 main_arg1
  let main_cst_5 : FVec F S_ .f32 := constant S_ .f32 0x00000000#32
  fn_part1 (F := F) main_v14 main_v15 main_cst_5
-- ==== Kernel.lean ====
abbrev S16384x2048 : Shape := ⟨2, ![16384, 2048]⟩
abbrev S1x1 : Shape := ⟨2, ![1, 1]⟩
abbrev S512x2048 : Shape := ⟨2, ![512, 2048]⟩
abbrev S512 : Shape := ⟨1, ![512]⟩
abbrev S512x1 : Shape := ⟨2, ![512, 1]⟩
abbrev S1 : Shape := ⟨1, ![1]⟩
abbrev S_ : Shape := ⟨0, ![]⟩

abbrev nBuf : Space → Nat
  | .hbm => 8
  | .vmem => 5
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S1x1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x1, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x1_S1x1_0_0 : ∀ a, (![0, 0] : Fin 2 → Nat) a + S1x1.size a ≤ S1x1.size a
  h_S1x1 : 0 < S1x1.numel
  inb_S512x2048_S512x2048_0_0 : ∀ a, (![0, 0] : Fin 2 → Nat) a + S512x2048.size a ≤ S512x2048.size a
  h_S512x2048 : 0 < S512x2048.numel
  reduces_S512x2048_S512 : S512x2048.Reduces [1] S512
  shapeCasts_S512_S512x1 : S512.ShapeCasts S512x1
  reduces_S512x1_S1 : S512x1.Reduces [0] S1
  shapeCasts_S1_S1x1 : S1.ShapeCasts S1x1
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .f32 = 32 ∨ (Rect.block (s := S16384x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S16384x2048.size a
  hwx0_1 : ∀ i : grid0.Coords, EltTy.bits .f32 = 32 ∨ (Rect.block (s := S16384x2048) S512x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S_ : Shape := ⟨0, ![]⟩
abbrev S16384 : Shape := ⟨1, ![16384]⟩
abbrev S16384x1 : Shape := ⟨2, ![16384, 1]⟩

abbrev nBuf : Space → Nat
  | .hbm => 25
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S16384x2048, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S16384x1, .f32⟩
  | .hbm, ⟨7, _⟩ => ⟨S16384x2048, .f32⟩
  | .hbm, ⟨8, _⟩ => ⟨S16384x2048, .f32⟩
  | .hbm, ⟨9, _⟩ => ⟨S16384x2048, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S16384x2048, .f32⟩
  | .hbm, ⟨17, _⟩ => ⟨S_, .f32⟩
  | .hbm, ⟨18, _⟩ => ⟨S16384, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call1_v0 : Ref sig .tc := ⟨.hbm, 9, rfl⟩
abbrev main_call1_cst : Ref sig .tc := ⟨.hbm, 10, rfl⟩
abbrev main_call1_v1 : Ref sig .tc := ⟨.hbm, 11, rfl⟩
abbrev main_call1_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩

abbrev nD : Nat := 1
abbrev τ : Topo := Topo.v7x

variable {F : FTy → Type} [FloatOps F]

class Facts₀ : Prop where
  reducesTo_S16384x2048_S16384_d1 : S16384x2048.ReducesTo [1] S16384
  h_S_ : 0 < S_.numel
  bcast_S16384_S16384x1_0 : S16384.BroadcastsInDim S16384x1 (![0] : Fin 1 → Fin S16384x1.rank)
  bcast_S16384x1_S16384x2048_0_1 : S16384x1.BroadcastsInDim S16384x2048 (![0, 1] : Fin 2 → Fin S16384x2048.rank)
  reducesTo_S16384_S_d0 : S16384.ReducesTo [0] S_

variable [Facts₀]

class Facts : Prop extends Facts₀ where

variable [Facts]
-- ==== Proof.KernelValue.lean ====
/-
  What the kernel's run leaves in its result, for any float values.

  The grid has 32 points; the [1, 1] output block never moves, is reset at the first point, added to at every point and
  written back to its array once, after the last. So after point `n` the output's buffer holds the body's stored value
  `pay(blockₙ(cxr), blockₙ(ehr), ·)` applied to what point `n - 1` left, starting at point 0 from the zero block the
  reset stores (`held`, by induction on the point). The one write-back at point 31 covers the whole one-element array
  (the block index is 0 on both axes at every point and the block is the array), so the array ends at `held` after point
  31 (`total`). The program's result is then the two host operations after the call applied to it: the [1, 1] array
  reshaped to a scalar, divided by 16384, and subtracted from 1 (`result`); the two argument arrays end unchanged.
-/
import proofs.«181780_j17540646437710_1_alg».proof.Proof.Gen.KernelIdeal.Frame
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Accum

open Cert.KernelIdeal Cert.KernelIdeal.Gen

variable {F : FTy → Type} [FloatOps F]
variable (m : (ℓ : Loc nD τ sig) → Buf (Elt F) ℓ) (ρ : Dev nD → PrngReg)

/-- The offsets `(0, 0)` of every access of the body, as the constant-zero function. -/
theorem origin_zero : (![0, 0] : Fin 2 → Nat) = fun _ => 0 := funext fun a => by fin_cases a <;> rfl

/-- AT A POINT AFTER THE FIRST the body's one store covers the output block: the block ends at the stored value of the
    two input blocks and of what the block held before. -/
theorem later_point (c : Dev nD) (i : grid0.Coords) (a1 : Memref sig .tc .vmem S512x2048 .f32) (h1 : a1.IsWhole)
    (a2 : Memref sig .tc .vmem S512x2048 .f32) (h2 : a2.IsWhole) (a3 : Memref sig .tc .vmem S1x1 .f32) (h3 : a3.IsWhole)
    (hc : ¬cond0_0 i) (x0 x1 : Vec F S512x2048 .f32) (xo : Vec F S1x1 .f32) :
    out0_B_2 c i a1 h1 a2 h2 a3 h3 hc x0 x1 xo = k0_pay2 x0 x1 xo := by
  unfold out0_B_2
  rw [View.read_writes_eq_canon _ _ _ (cover0_B_2 c i a1 h1 a2 h2 a3 h3 hc x0 x1 xo)]
  unfold kernelRun0_B
  dsimp only
  sl_unfold_words
  rw [View.canon_unit_zero origin_zero]
  simp only [View.readAt_eq_ld, h1.read_unread, h2.read_unread, h3.read_unread,
    View.ld_unit_zero (S := S512x2048) origin_zero, View.ld_unit_zero (S := S1x1) origin_zero]

/-- AT THE FIRST POINT the body first stores the zero block, reads it back, and then stores over it: the block ends at
    the stored value of the two input blocks and of the zero block. -/
theorem first_point (c : Dev nD) (i : grid0.Coords) (a1 : Memref sig .tc .vmem S512x2048 .f32) (h1 : a1.IsWhole)
    (a2 : Memref sig .tc .vmem S512x2048 .f32) (h2 : a2.IsWhole) (a3 : Memref sig .tc .vmem S1x1 .f32) (h3 : a3.IsWhole)
    (hc : cond0_0 i) (x0 x1 : Vec F S512x2048 .f32) :
    out0_A_2 c i a1 h1 a2 h2 a3 h3 hc x0 x1 = k0_pay2 x0 x1 (k0_pay1 (F := F)) := by
  unfold out0_A_2
  rw [View.read_writes_eq_canon _ _ _ (cover0_A_2 c i a1 h1 a2 h2 a3 h3 hc x0 x1)]
  unfold kernelRun0_A
  dsimp only
  sl_unfold_words
  rw [View.canon_cons_unit_zero (S := S1x1) origin_zero, View.readCov_unit_zero (S := S1x1) _ origin_zero]
  simp only [View.readAt_eq_ld, h1.read_unread, h2.read_unread,
    View.ld_unit_zero (S := S512x2048) origin_zero, View.ld_unit_zero (S := S1x1) origin_zero]

/-- What the output block holds after point `n`: the stored value over the zero block at point 0, over what the point
    before left afterwards. -/
def held (c : Dev nD) : (n : ℕ) → n < cfg0.N → Vec F S1x1 .f32
  | 0, h => k0_pay2 (iblk m c 0 ⟨0, h⟩) (iblk m c 1 ⟨0, h⟩) (k0_pay1 (F := F))
  | n + 1, h => k0_pay2 (iblk m c 0 ⟨n + 1, h⟩) (iblk m c 1 ⟨n + 1, h⟩) (held c n (Nat.lt_of_succ_lt h))

/-- The frame's point-by-point contents of the output block are `held`: by induction on the point, the first point the
    resetting case, every later one the accumulating case. -/
theorem outsAt_eq_held (c : Dev nD) : ∀ (n : ℕ) (h : n < cfg0.N), outsAt0 m c n h = held m c n h
  | 0, h => (outsAt0_A m c ⟨0, h⟩ rfl).trans (first_point c _ _ _ _ _ _ _ _ _ _)
  | n + 1, h => by
    have hN : cfg0.N = 32 := N_0
    have hB : ¬(⟨n + 1, h⟩ : Fin cfg0.N).val % 32 = 0 := by dsimp only; omega
    rw [outsAt0_B m c ⟨n + 1, h⟩ hB, later_point]
    show k0_pay2 _ _ (outsAt0 m c n _) = k0_pay2 _ _ (held m c n _)
    rw [outsAt_eq_held c n]

/-- The last grid point, the only one after which the output block is written back. -/
abbrev lastPt : Fin cfg0.N := ⟨31, by rw [show cfg0.N = 32 from N_0]; decide⟩

/-- The accumulated [1, 1] array: what the output block holds after the last point. -/
abbrev total (c : Dev nD) : Buf (Elt F) ((c : Thread nD τ).loc main_v0) := held m c 31 lastPt.isLt

/-- The output window's block index is `(0, 0)` at every grid point (its index map is constant). -/
theorem out_index_zero : ∀ (t : Fin cfg0.N) (a : Fin 2), win0_2.index t a = 0 :=
  (by decide +kernel : ∀ (t : Fin grid0.N) (a : Fin 2), win0_2.index t a = 0)

/-- The output window's block has one row and one column at every grid point. -/
theorem out_xsize_one : ∀ (t : Fin cfg0.N) (a : Fin 2), win0_2.xsize (grid0.coords t) a = 1 :=
  (by decide +kernel : ∀ (t : Fin grid0.N) (a : Fin 2), win0_2.xsize (grid0.coords t) a = 1)

/-- What a writing-back point writes: only point 31 writes back, and its block, read through zero offsets, is the whole
    [1, 1] array at `total`. -/
theorem flushed_eq_total (c : Dev nD) (t : Fin cfg0.N) (hf : (cfg0.win 2).flush t = true) :
    (dats m 0 c).flushed 2 t = ((cfg0.win 2).blk t).view.read (Elt F) (total m c) := by
  have hN : cfg0.N = 32 := N_0
  have h31 : t.val = 31 := by have := (flush0_2 t).mp hf; have := t.isLt; omega
  obtain rfl : t = lastPt := Fin.ext h31
  show (cfg0.win 2).cut (grid0.coords lastPt) ((dats m 0 c).after 2 lastPt) = _
  rw [after0_2, outsAt_eq_held]
  have hoff : (fun a => win0_2.index lastPt a * main_v0.ty.shape.size a) = fun _ => 0 :=
    funext fun a => by rw [out_index_zero]; exact Nat.zero_mul _
  exact (Memref.read_access_unit_zero (Elt F) main_v0 hoff (fun a => by rw [congrFun hoff a]; simp) (total m c)).symm

/-- After the run the output array holds `total`: the last point's block covers its one element. -/
theorem out_array (c : Dev nD) : (dats m 0 c).arrAt 2 cfg0.N = total m c :=
  (dats m 0 c).arrAt_eq_of_cover 2 (total m c) (flushed_eq_total m c) fun i =>
    ⟨lastPt, (flush0_2 lastPt).mpr rfl, by
      show i ∈ ((View.whole main_v0).slice (win0_2.rect lastPt)).set
      rw [View.set_slice_whole, Rect.mem_set_unit]
      intro a
      have hi : ∀ b : Fin 2, (i b : Nat) < 1 := fun b => by fin_cases b <;> exact (i _).isLt
      have hia := hi a
      rw [out_index_zero lastPt a, out_xsize_one lastPt a]
      omega⟩

/-- The host operations after the call, run from the region's exit contents, leave in the result buffer
    `1 - reshape(total) / 16384`. -/
theorem tail_eq (c : Dev nD) :
    Pipeline.afterTail₀ cfgs (dats m) 0 (V0 m) [hostOps1] c main_v3
      = subf (constant S_ .f32 0x3F800000#32) (Host.divf (shapeCast S_ (total m c) shapeCasts_S1x1_S_) (constant S_ .f32 0x46800000#32)) := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.tc.devRef main_v0)
      = total m c := (Pipeline.withArrays_arr spec0 launch0.win.arr_inj c _ _ 2).trans (out_array m c)
  rw [e]
  rfl

/-- The program's result: one minus the accumulated sum over 16384. -/
abbrev result (c : Dev nD) : Buf (Elt F) ((c : Thread nD τ).loc main_v3) :=
  subf (constant S_ .f32 0x3F800000#32) (Host.divf (shapeCast S_ (total m c) shapeCasts_S1x1_S_) (constant S_ .f32 0x46800000#32))

/-- Every weakly fair execution of the program terminates with the result buffer at `result` and both argument arrays
    unchanged. -/
theorem run : θ_run defs (onTc (τ := τ) (main (F := F))) ⟨m, fun _ => 0, ρ⟩ fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v3 (Pipeline.mem_restRefs_of main_v3 rfl (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩) (run_main m ρ)

end Cert.KernelIdeal.Accum

end
-- ==== Proof.LibColumnCast.lean ====
/-
  A vector of length `a` viewed as a column: the shape cast `[a] → [a, 1]` read at an index.

  A shape cast keeps the row-major position. Entry `(i, u)` of the `[a, 1]` column sits at position `i · 1 + u`, and
  `u` ranges over one value, so it is entry `i` of the vector. This is the cast a reduction with `keepdims` along
  the last axis of a matrix produces; it holds for entries of any type.
-/
import Idealize.ShloMosaic.Lib.ValueIdx
import Idealize.ShloMosaic.Lib.Pipeline.Value

open Idealize.ShloMosaic Idealize.ShloMosaic.ValueIdx

namespace Cert.CosineLoss

/-- The column `[a, 1]` cast from a vector `[a]` holds, at `(i, u)`, the vector's entry `i`, whatever the unit
    coordinate `u`. -/
theorem shapeCast_column_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

end Cert.CosineLoss
-- ==== Proof.Payload.lean ====
/-
  What one grid point adds to the accumulator, over the extended reals.

  The kernel's body at a grid point holds a block `x0` of 512 rows of `cxr`, the matching block `x1` of `ehr`, and the
  [1, 1] accumulator `prev`. Its stored value is `prev + ∑ₚ cosₚ` where, for row `p` of the block,

      cosₚ = (∑_d x0[p,d]·x1[p,d]) · rsqrt(∑_d x0[p,d]²) · rsqrt(∑_d x1[p,d]²).

  The three lane sums are reductions of a [512, 2048] product along its columns (into the zero accumulator: a plain
  sum over the 2048 columns), each kept as a [512, 1] column; the products and reciprocal square roots are pointwise on
  the columns; the block's 512 cosines are then summed along the rows into one number.
-/
import proofs.«181780_j17540646437710_1_alg».proof.Proof.Gen.KernelIdeal.Skeleton
import proofs.«181780_j17540646437710_1_alg».proof.Proof.LibColumnCast
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.KernelIdeal.Accum

open Cert.KernelIdeal Cert.KernelIdeal.Gen Cert.CosineLoss

/-- The sum along the columns of a [512, 2048] array, at row `p`: the sum over the 2048 columns of that row's entries
    (the reduction starts from the zero word, which contributes nothing). -/
theorem rowSum_apply (src : FVec Ideal S512x2048 .f32) (hφ : FKind.Formats .f32)
    (hacc : (0x00000000#32 : BitVec 32) = 0x00000000#32) (p : Fin 512) :
    multiReduction .add [1] S512 src 0x00000000#32 reduces_S512x2048_S512 hφ hacc (ix1 p)
      = ∑ d : Fin 2048, src (ix2 p d) := by
  refine (Ideal.multiReduction_add_single src 0x00000000#32 reduces_S512x2048_S512 hφ hacc (ix1 p)).trans ?_
  exact Finset.sum_congr rfl fun d _ => congrArg src (funext fun a => Fin.ext (by match a with | ⟨0, _⟩ => rfl | ⟨1, _⟩ => rfl))

/-- The sum along the rows of a [512, 1] column: the sum of its 512 entries. -/
theorem colSum_apply (src : FVec Ideal S512x1 .f32) (hφ : FKind.Formats .f32)
    (hacc : (0x00000000#32 : BitVec 32) = 0x00000000#32) (u : Fin 1) :
    multiReduction .add [0] S1 src 0x00000000#32 reduces_S512x1_S1 hφ hacc (ix1 u)
      = ∑ p : Fin 512, src (ix2 p u) := by
  refine (Ideal.multiReduction_add_single src 0x00000000#32 reduces_S512x1_S1 hφ hacc (ix1 u)).trans ?_
  exact Finset.sum_congr rfl fun p _ => congrArg src (funext fun a => Fin.ext (by match a with | ⟨0, _⟩ => rfl | ⟨1, _⟩ => rfl))

/-- The value a grid point stores, at the accumulator's one index: what the accumulator held plus the sum over the
    block's 512 rows of the row's cosine in the kernel's spelling. -/
theorem pay2_apply (x0 x1 : Vec Ideal S512x2048 .f32) (prev : Vec Ideal S1x1 .f32) (j : S1x1.Idx) :
    k0_pay2 (F := Ideal) x0 x1 prev j
      = prev j + ∑ p : Fin 512, (∑ d : Fin 2048, x0 (ix2 p d) * x1 (ix2 p d))
          * Ideal.rsqrt (∑ d : Fin 2048, x0 (ix2 p d) * x0 (ix2 p d))
          * Ideal.rsqrt (∑ d : Fin 2048, x1 (ix2 p d) * x1 (ix2 p d)) := by
  obtain ⟨u, v, rfl⟩ : ∃ (u : Fin 1) (v : Fin 1), j = ix2 u v := ⟨j 0, j 1, eq_ix2 j⟩
  unfold k0_pay2
  dsimp only
  rw [addf_apply, shapeCast_self, shapeCast_a_1a_apply, colSum_apply]
  refine congrArg (prev (ix2 u v) + ·) (Finset.sum_congr rfl fun p _ => ?_)
  rw [mulf_apply, mulf_apply]
  show _ * Ideal.rsqrt _ * Ideal.rsqrt _ = _
  simp only [shapeCast_column_apply]
  exact congrArg₂ (· * ·)
    (congrArg₂ (· * ·) (rowSum_apply (mulf x0 x1) _ _ p) (congrArg Ideal.rsqrt (rowSum_apply (mulf x0 x0) _ _ p)))
    (congrArg Ideal.rsqrt (rowSum_apply (mulf x1 x1) _ _ p))

end Cert.KernelIdeal.Accum

end
-- ==== Proof.BlockSum.lean ====
/-
  Two facts about sums in a commutative monoid (used at the extended reals, whose addition is commutative and
  associative at the infinities too).

  * 16384 rows are 32 blocks of 512: the sum over all rows is the sum over the blocks of each block's sum,
    row `512·t + p` being row `p` of block `t`.
  * A running total started at `0 + B 0` and increased by `B (n+1)` at each further step is, after step `n`,
    the sum of `B 0 … B n`.
-/
import Mathlib.Algebra.BigOperators.Fin
import Mathlib.Logic.Equiv.Fin.Basic

namespace Cert.CosineLoss

variable {M : Type} [AddCommMonoid M]

/-- The sum over 16384 consecutive rows, regrouped as 32 blocks of 512 rows. -/
theorem sum_rows_eq_sum_blocks (f : ℕ → M) :
    ∑ r : Fin 16384, f r.val = ∑ t : Fin 32, ∑ p : Fin 512, f (512 * t.val + p.val) := by
  rw [← Fintype.sum_prod_type']
  refine (Fintype.sum_equiv (finProdFinEquiv (m := 32) (n := 512)) _ _ fun x => ?_).symm
  show f (512 * x.1.val + x.2.val) = f (finProdFinEquiv x).val
  rw [finProdFinEquiv_apply_val, Nat.add_comm]

/-- The running total after step `n`: started from zero, one summand added per step, in order. -/
def runSum (B : ℕ → M) : ℕ → M
  | 0 => 0 + B 0
  | n + 1 => runSum B n + B (n + 1)

/-- The running total after step `n` is the sum of the first `n + 1` summands. -/
theorem runSum_eq_sum (B : ℕ → M) (n : ℕ) : runSum B n = ∑ s ∈ Finset.range (n + 1), B s := by
  induction n with
  | zero => simp [runSum]
  | succ n ih => rw [runSum, ih, Finset.sum_range_succ _ (n + 1)]

/-- After the last of 32 steps it is the sum over all 32. -/
theorem runSum_31 (B : ℕ → M) : runSum B 31 = ∑ t : Fin 32, B t.val := by
  rw [runSum_eq_sum, Fin.sum_univ_eq_sum_range]

end Cert.CosineLoss
-- ==== Proof.KernelSum.lean ====
/-
  The kernel's accumulated sum, over the extended reals, is the sum over all 16384 rows of the row's cosine.

  Row `p` of the block a grid point `t` reads is row `512·t + p` of the argument array (both input windows take block
  `(t, 0)` of 512 × 2048), so the 512 cosines a point adds are those of rows `512·t … 512·t + 511` (`block_eq`). The
  accumulator after point `n` is therefore the running total of the block sums (`held_apply`, by induction, the reset's
  zero block contributing `0`), after point 31 the sum over the 32 blocks, and 32 blocks of 512 rows are the 16384 rows.
-/
import proofs.«181780_j17540646437710_1_alg».proof.Proof.KernelValue
import proofs.«181780_j17540646437710_1_alg».proof.Proof.Payload
import proofs.«181780_j17540646437710_1_alg».proof.Proof.BlockSum

noncomputable section

open Idealize.ShloMosaic Idealize.ShloMosaic.TcCoe Idealize.SL.Sem Idealize.ShloMosaic.ValueIdx
open Idealize.ShloMosaic.Pipeline (Dat)

namespace Cert.KernelIdeal.Accum

open Cert.KernelIdeal Cert.KernelIdeal.Gen Cert.CosineLoss

variable (m : (ℓ : Loc nD τ sig) → Buf (Elt Ideal) ℓ)

/-- The two argument arrays, and the blocks of them a grid point reads. -/
abbrev cxr (c : Dev nD) : FVec Ideal S16384x2048 .f32 := m ((c : Thread nD τ).loc main_arg0)
abbrev ehr (c : Dev nD) : FVec Ideal S16384x2048 .f32 := m ((c : Thread nD τ).loc main_arg1)
abbrev cxrBlk (c : Dev nD) (t : Fin cfg0.N) : Vec Ideal S512x2048 .f32 := iblk m c 0 t
abbrev ehrBlk (c : Dev nD) (t : Fin cfg0.N) : Vec Ideal S512x2048 .f32 := iblk m c 1 t

/-- Both input windows take, at grid point `t`, block `(t, 0)`. -/
theorem in_index : ∀ t : Fin cfg0.N, win0_0.index t 0 = t.val ∧ win0_0.index t 1 = 0
    ∧ win0_1.index t 0 = t.val ∧ win0_1.index t 1 = 0 :=
  (by decide +kernel : ∀ t : Fin grid0.N, win0_0.index t 0 = t.val ∧ win0_0.index t 1 = 0
    ∧ win0_1.index t 0 = t.val ∧ win0_1.index t 1 = 0)

/-- Entry `(p, d)` of the block of `cxr` at point `t` is entry `(512·t + p, d)` of `cxr`. -/
theorem cxrBlk_apply (c : Dev nD) (t : Fin cfg0.N) (p : Fin 512) (d : Fin 2048) (hr : 512 * t.val + p.val < 16384) :
    cxrBlk m c t (ix2 p d) = cxr m c (ix2 ⟨512 * t.val + p.val, hr⟩ d) := by
  unfold cxrBlk iblk
  rw [View.read_apply]
  show V m c main_arg0 _ = m ((c : Thread nD τ).loc main_arg0) _
  rw [V_main_arg0]
  congr 1
  funext a
  apply Fin.ext
  match a with
  | ⟨0, _⟩ => show win0_0.index t 0 * 512 + 1 * p.val = 512 * t.val + p.val; rw [(in_index t).1]; omega
  | ⟨1, _⟩ => show win0_0.index t 1 * 2048 + 1 * d.val = d.val; rw [(in_index t).2.1]; omega

/-- Entry `(p, d)` of the block of `ehr` at point `t` is entry `(512·t + p, d)` of `ehr`. -/
theorem ehrBlk_apply (c : Dev nD) (t : Fin cfg0.N) (p : Fin 512) (d : Fin 2048) (hr : 512 * t.val + p.val < 16384) :
    ehrBlk m c t (ix2 p d) = ehr m c (ix2 ⟨512 * t.val + p.val, hr⟩ d) := by
  unfold ehrBlk iblk
  rw [View.read_apply]
  show V m c main_arg1 _ = m ((c : Thread nD τ).loc main_arg1) _
  rw [V_main_arg1]
  congr 1
  funext a
  apply Fin.ext
  match a with
  | ⟨0, _⟩ => show win0_1.index t 0 * 512 + 1 * p.val = 512 * t.val + p.val; rw [(in_index t).2.2.1]; omega
  | ⟨1, _⟩ => show win0_1.index t 1 * 2048 + 1 * d.val = d.val; rw [(in_index t).2.2.2]; omega

/-- Row `r`'s cosine in the kernel's spelling: the dot product times the reciprocal square roots of the two sums of
    squares. -/
def rowTerm (X Y : FVec Ideal S16384x2048 .f32) (r : Fin 16384) : EReal :=
  (∑ d : Fin 2048, X (ix2 r d) * Y (ix2 r d)) * Ideal.rsqrt (∑ d : Fin 2048, X (ix2 r d) * X (ix2 r d))
    * Ideal.rsqrt (∑ d : Fin 2048, Y (ix2 r d) * Y (ix2 r d))

/-- The same with the row given as a natural number (zero past the last row). -/
def rowTermN (X Y : FVec Ideal S16384x2048 .f32) (r : ℕ) : EReal :=
  if h : r < 16384 then rowTerm X Y ⟨r, h⟩ else 0

/-- The sum of the cosines of block `s`'s 512 rows. -/
def blockTerm (c : Dev nD) (s : ℕ) : EReal :=
  ∑ p : Fin 512, rowTermN (cxr m c) (ehr m c) (512 * s + p.val)

/-- What a grid point adds, written over its two blocks, is its block's sum of row cosines. -/
theorem block_eq (c : Dev nD) (t : Fin cfg0.N) :
    (∑ p : Fin 512, (∑ d : Fin 2048, cxrBlk m c t (ix2 p d) * ehrBlk m c t (ix2 p d))
        * Ideal.rsqrt (∑ d : Fin 2048, cxrBlk m c t (ix2 p d) * cxrBlk m c t (ix2 p d))
        * Ideal.rsqrt (∑ d : Fin 2048, ehrBlk m c t (ix2 p d) * ehrBlk m c t (ix2 p d)))
      = blockTerm m c t.val := by
  have hN : cfg0.N = 32 := N_0
  unfold blockTerm
  refine Finset.sum_congr rfl fun p _ => ?_
  have hr : 512 * t.val + p.val < 16384 := by have := t.isLt; have := p.isLt; omega
  have e0 : ∀ d : Fin 2048, cxrBlk m c t (ix2 p d) = cxr m c (ix2 ⟨512 * t.val + p.val, hr⟩ d) :=
    fun d => cxrBlk_apply m c t p d hr
  have e1 : ∀ d : Fin 2048, ehrBlk m c t (ix2 p d) = ehr m c (ix2 ⟨512 * t.val + p.val, hr⟩ d) :=
    fun d => ehrBlk_apply m c t p d hr
  rw [rowTermN, dif_pos hr]
  unfold rowTerm
  simp only [e0, e1]

/-- The accumulator after point `n` is the running total of the block sums. -/
theorem held_apply (c : Dev nD) (j : S1x1.Idx) : ∀ (n : ℕ) (h : n < cfg0.N), held m c n h j = runSum (blockTerm m c) n
  | 0, h => by
    show k0_pay2 (cxrBlk m c ⟨0, h⟩) (ehrBlk m c ⟨0, h⟩) (k0_pay1 (F := Ideal)) j = 0 + blockTerm m c 0
    rw [pay2_apply]
    exact congrArg₂ (· + ·) Ideal.ofBits_zero_f32 (block_eq m c ⟨0, h⟩)
  | n + 1, h => by
    show k0_pay2 (cxrBlk m c ⟨n + 1, h⟩) (ehrBlk m c ⟨n + 1, h⟩) (held m c n (Nat.lt_of_succ_lt h)) j
      = runSum (blockTerm m c) n + blockTerm m c (n + 1)
    rw [pay2_apply, held_apply c j n]
    exact congrArg (runSum (blockTerm m c) n + ·) (block_eq m c ⟨n + 1, h⟩)

/-- After the last point it is the sum of all 16384 row cosines. -/
theorem total_apply (c : Dev nD) (j : S1x1.Idx) :
    total m c j = ∑ r : Fin 16384, rowTerm (cxr m c) (ehr m c) r := by
  show held m c 31 _ j = _
  rw [held_apply, runSum_31]
  unfold blockTerm
  rw [← sum_rows_eq_sum_blocks (rowTermN (cxr m c) (ehr m c))]
  refine Finset.sum_congr rfl fun r _ => ?_
  rw [rowTermN, dif_pos r.isLt]

/-- And so is the [1, 1] array reshaped to a scalar, at its one index. -/
theorem scalar_apply (c : Dev nD) (i : S_.Idx) :
    shapeCast S_ (total m c) shapeCasts_S1x1_S_ i = ∑ r : Fin 16384, rowTerm (cxr m c) (ehr m c) r := by
  have hk : (S1x1.rowMajor (ix2 (0 : Fin 1) (0 : Fin 1))).val = (S_.rowMajor i).val := by
    have h1 : (S_.rowMajor i).val < 1 := (S_.rowMajor i).isLt
    rw [Shape.rowMajor_val_two]
    show 0 * 1 + 0 = _
    omega
  rw [shapeCast_apply (total m c) shapeCasts_S1x1_S_ i (ix2 (0 : Fin 1) (0 : Fin 1)) hk]
  exact total_apply m c _

end Cert.KernelIdeal.Accum

end
-- ==== Proof.RefValue.lean ====
/-
  The reference's double sum, over the extended reals.

  The reference divides every entry of `ehr` by its row's norm `√(0 + ∑ e²)` (the norm broadcast back over the columns),
  the same for `cxr`, multiplies the two normalised arrays entry by entry, sums along the columns and then over the rows,
  each sum started from the zero word. Read one operation at a time at an index, entry `(r, d)` of the product is
  `e[r,d] / √(∑ e[r,·]²) · c[r,d] / √(∑ c[r,·]²)`, and the total is the sum over the rows `r` of the sum over the columns
  `d` of that (`refRow`).
-/
import proofs.«181780_j17540646437710_1_alg».proof.Proof.Gen.ReferenceIdeal.Run
import proofs.«181780_j17540646437710_1_alg».proof.Proof.Gen.ReferenceIdeal.Read
import Idealize.ShloMosaic.Lib.ValueIdx
import Idealize.ShloMosaic.Lib.ValueIdxRank1
import Idealize.ShloMosaic.PureOps.Ideal.Laws

noncomputable section

open Idealize.ShloMosaic Idealize.ShloMosaic.ValueIdx

namespace Cert.ReferenceIdeal.RowForm

open Cert.ReferenceIdeal Cert.ReferenceIdeal.Read

/-- The entry of the norm of `ehr` that entry `(r, d)` is divided by sums the squares of row `r`: its `k`-th summand
    sits at `(r, k)`. -/
theorem idx_norm_ehr (r : Fin 16384) (d k : Fin 2048) :
    idx_main_call0_v1 (idx_main_call0_v2 (idx_main_v1 (ix2 r d))) k = ix2 r k :=
  funext fun a => Fin.ext (by match a with | ⟨0, _⟩ => rfl | ⟨1, _⟩ => rfl)

/-- The same for the norm of `cxr`. -/
theorem idx_norm_cxr (r : Fin 16384) (d k : Fin 2048) :
    idx_main_call1_v1 (idx_main_call1_v2 (idx_main_v4 (ix2 r d))) k = ix2 r k :=
  funext fun a => Fin.ext (by match a with | ⟨0, _⟩ => rfl | ⟨1, _⟩ => rfl)

/-- The row sum at `j` takes its `k`-th summand at `(j, k)`. -/
theorem idx_row (j : S16384.Idx) (k : Fin 2048) : idx_main_v7 j k = ix2 (j 0) k :=
  funext fun a => Fin.ext (by match a with | ⟨0, _⟩ => rfl | ⟨1, _⟩ => rfl)

/-- Row `r`'s cosine in the reference's spelling: the sum over the columns of the products of the two normalised
    entries. -/
def refRow (X Y : FVec Ideal S16384x2048 .f32) (r : Fin 16384) : EReal :=
  ∑ d : Fin 2048, Ideal.div (Y (ix2 r d)) (Ideal.sqrt (∑ k : Fin 2048, Y (ix2 r k) * Y (ix2 r k)))
    * Ideal.div (X (ix2 r d)) (Ideal.sqrt (∑ k : Fin 2048, X (ix2 r k) * X (ix2 r k)))

/-- Entry `(r, d)` of the product of the two normalised arrays. -/
theorem prod_apply (X Y : FVec Ideal S16384x2048 .f32) (r : Fin 16384) (d : Fin 2048) :
    val_main_v6 (F := Ideal) X Y (ix2 r d)
      = Ideal.div (Y (ix2 r d)) (Ideal.sqrt (∑ k : Fin 2048, Y (ix2 r k) * Y (ix2 r k)))
        * Ideal.div (X (ix2 r d)) (Ideal.sqrt (∑ k : Fin 2048, X (ix2 r k) * X (ix2 r k))) := by
  rw [val_main_v6_apply, val_main_v2_apply, val_main_v1_apply, val_main_v0_apply, val_main_call0_v2_apply,
    val_main_call0_v1_apply, val_main_v5_apply, val_main_v4_apply, val_main_v3_apply, val_main_call1_v2_apply,
    val_main_call1_v1_apply]
  simp only [val_main_call0_cst_apply, val_main_call1_cst_apply, val_main_call0_v0_apply, val_main_call1_v0_apply,
    idx_norm_ehr, idx_norm_cxr, Ideal.mulf_def, Ideal.hostDivf_def, Ideal.hostUnary_sqrt_def, Ideal.ofBits_def,
    Ideal.ofBits_zero_f32, zero_add]

/-- The sum along the columns at row `j` is that row's cosine. -/
theorem row_apply (X Y : FVec Ideal S16384x2048 .f32) (j : S16384.Idx) :
    val_main_v7 (F := Ideal) X Y j = refRow X Y (j 0) := by
  rw [val_main_v7_apply]
  simp only [val_main_cst_apply, Ideal.ofBits_def, Ideal.ofBits_zero_f32, zero_add, idx_row]
  exact Finset.sum_congr rfl fun d _ => prod_apply X Y (j 0) d

/-- The sum over the rows is the sum of the 16384 row cosines. -/
theorem sum_apply (X Y : FVec Ideal S16384x2048 .f32) (i : S_.Idx) :
    val_main_v8 (F := Ideal) X Y i = ∑ r : Fin 16384, refRow X Y r := by
  rw [val_main_v8_apply]
  simp only [val_main_cst_0_apply, Ideal.ofBits_def, Ideal.ofBits_zero_f32, zero_add, row_apply]
  exact Fintype.sum_equiv idxEquiv1 _ _ (fun j => rfl)

end Cert.ReferenceIdeal.RowForm

end
-- ==== Proof.PreFacts.lean ====
/-
  What the precondition says of the two inputs, over the extended reals.

  The precondition is the conjunction of four tests, each an `all` over an array of comparisons: `|x| < +∞` at every
  entry of `cxr` and of `ehr`, and `∑_d x[r,d]² > 0` at every row of `cxr` and of `ehr`. An extended real whose absolute
  value is below `+∞` is a real number; the row test's sum starts from the zero word, which adds nothing. So: every
  entry of both inputs is real, and every row of both inputs has a positive sum of squares.
-/
import proofs.«181780_j17540646437710_1_alg».proof.Pre_finite_inputs
import Idealize.ShloMosaic.PureOps.Ideal.Laws
import Idealize.ShloMosaic.Lib.ReduceAll
import Idealize.ShloMosaic.Lib.Affine
import Idealize.ShloMosaic.Lib.ValueIdx
import Idealize.ShloMosaic.Lib.Pipeline.Value

noncomputable section

open Idealize.ShloMosaic Idealize.ShloMosaic.ValueIdx

namespace Cert.CosineLoss

open Cert.Pre_finite_inputs

/-- A rank-0 shape has one index. -/
instance : Subsingleton S_.Idx := ⟨fun a b => funext fun d => d.elim0⟩

/-- An extended real whose absolute value compares below the `+∞` word is a real number. -/
theorem real_of_abs_lt_inf (a : EReal)
    (h : Ideal.cmp .olt (max a (-a)) (Ideal.ofBits .f32 0x7F800000#32) = 1#1) : ∃ r : ℝ, a = r := by
  have htop : Ideal.ofBits .f32 0x7F800000#32 = ⊤ := by simp [Ideal.ofBits, Ideal.ieee]
  rw [htop] at h
  induction a using EReal.rec with
  | bot => simp [Ideal.cmp] at h
  | top => simp [Ideal.cmp] at h
  | coe r => exact ⟨r, rfl⟩

/-- An extended real that compares above the zero word is positive. -/
theorem pos_of_gt_zero (a : EReal) (h : Ideal.cmp .ogt a (Ideal.ofBits .f32 0x00000000#32) = 1#1) : 0 < a := by
  rw [Ideal.ofBits_zero_f32] at h
  by_contra hn
  simp [Ideal.cmp, hn] at h

variable [Cert.Pre_finite_inputs.Facts]

/-- The host's sum of squares along the columns, at row `r`: zero plus the sum over the 2048 columns of the squares. -/
theorem sumsq_apply (x : FVec Ideal S16384x2048 .f32) (r : Fin 16384) :
    Host.reduceAdd (mulf x x) (constant S_ .f32 0x00000000#32) Facts.reducesTo_S16384x2048_S16384_d1 Facts.h_S_ (ix1 r)
      = 0 + ∑ d : Fin 2048, x (ix2 r d) * x (ix2 r d) := by
  simp only [Host.reduceAdd, Ideal.hostReduceAdd_def]
  rw [Ideal.hostReduceAdd_single Facts.reducesTo_S16384x2048_S16384_d1 (by decide)]
  refine congrArg₂ (· + ·) ?_ (Finset.sum_congr rfl fun d _ => ?_)
  · exact Ideal.ofBits_zero_f32
  · exact congrArg (fun i => x i * x i) (funext fun a => Fin.ext (by match a with | ⟨0, _⟩ => rfl | ⟨1, _⟩ => rfl))

/-- The row test at row `r`: the compared vector's entry `r` is positive (the other operand is the broadcast zero). -/
theorem gt_zero_apply (A : FVec Ideal S16384 .f32) (r : Fin 16384)
    (h : cmpf .ogt A (broadcastInDim S16384 ![] Facts.bcast_S_S16384 (constant S_ .f32 0x00000000#32)) (ix1 r) = 1#1) :
    0 < A (ix1 r) := by
  have hb : broadcastInDim S16384 ![] Facts.bcast_S_S16384 (constant (F := Ideal) S_ .f32 0x00000000#32) (ix1 r)
      = Ideal.ofBits .f32 0x00000000#32 :=
    broadcastInDim_apply _ Facts.bcast_S_S16384 _ (ix1 r) ix0 (fun a => a.elim0)
  have h' : Ideal.cmp .ogt (A (ix1 r))
      (broadcastInDim S16384 ![] Facts.bcast_S_S16384 (constant (F := Ideal) S_ .f32 0x00000000#32) (ix1 r)) = 1#1 := h
  rw [hb] at h'
  exact pos_of_gt_zero _ h'

/-- THE PRECONDITION, READ: all entries real, all rows' sums of squares positive. -/
theorem of_pre (x y : FVec Ideal S16384x2048 .f32)
    (h : Cert.Pre_finite_inputs.fn (F := Ideal) x y = fun _ => 1#1) :
    (∀ i, ∃ r : ℝ, x i = r) ∧ (∀ i, ∃ r : ℝ, y i = r)
    ∧ (∀ r : Fin 16384, 0 < ∑ d : Fin 2048, x (ix2 r d) * x (ix2 r d))
    ∧ (∀ r : Fin 16384, 0 < ∑ d : Fin 2048, y (ix2 r d) * y (ix2 r d)) := by
  have h0 := congrFun h ix0
  dsimp only [fn, fn_part1] at h0
  obtain ⟨h123, h4⟩ := IntOp.andi_eq_one.1 h0
  obtain ⟨h12, h3⟩ := IntOp.andi_eq_one.1 h123
  obtain ⟨h1, h2⟩ := IntOp.andi_eq_one.1 h12
  refine ⟨fun i => real_of_abs_lt_inf (x i) (Host.reduce_andi_all _ _ _ _ ix0 h1 i),
    fun i => real_of_abs_lt_inf (y i) (Host.reduce_andi_all _ _ _ _ ix0 h2 i), fun r => ?_, fun r => ?_⟩
  · have hpos := gt_zero_apply _ r (Host.reduce_andi_all _ _ _ _ ix0 h3 (ix1 r))
    rwa [sumsq_apply, zero_add] at hpos
  · have hpos := gt_zero_apply _ r (Host.reduce_andi_all _ _ _ _ ix0 h4 (ix1 r))
    rwa [sumsq_apply, zero_add] at hpos

end Cert.CosineLoss

end
-- ==== Proof.RowCosine.lean ====
/-
  One row's cosine, in two spellings, on the extended reals.

  For two rows `c`, `e` of REAL numbers whose sums of squares are positive,

      (∑ c·e) · (∑ c²)^(-1/2) · (∑ e²)^(-1/2)   =   ∑ (e / √(∑ e²)) · (c / √(∑ c²)).

  Both sums of squares are positive reals, so the reciprocal square root is the real `(√s)⁻¹`, the square root
  is a nonzero real, and a quotient by it is the product with its reciprocal; what remains is an identity of
  real numbers: the two scalar factors leave the sum (distributivity, which is why every entry must be real).
-/
import Idealize.ShloMosaic.PureOps.Ideal

open Idealize.ShloMosaic

namespace Cert.CosineLoss

variable {ι : Type} [Fintype ι]

/-- A finite sum of real numbers, taken in the extended reals, is the real sum. -/
theorem coe_sum (s : Finset ι) (f : ι → ℝ) : (∑ d ∈ s, (f d : EReal)) = ((∑ d ∈ s, f d : ℝ) : EReal) := by
  classical
  induction s using Finset.induction_on with
  | empty => simp
  | insert a s ha ih => rw [Finset.sum_insert ha, Finset.sum_insert ha, ih, EReal.coe_add]

/-- The row's cosine written with reciprocal square roots of the sums of squares is the sum of the products of
    the two normalised rows. -/
theorem row_cosine (c e : ι → EReal) (hc : ∀ d, ∃ r : ℝ, c d = r) (he : ∀ d, ∃ r : ℝ, e d = r)
    (hsc : 0 < ∑ d, c d * c d) (hse : 0 < ∑ d, e d * e d) :
    (∑ d, c d * e d) * Ideal.rsqrt (∑ d, c d * c d) * Ideal.rsqrt (∑ d, e d * e d)
      = ∑ d, Ideal.div (e d) (Ideal.sqrt (∑ k, e k * e k)) * Ideal.div (c d) (Ideal.sqrt (∑ k, c k * c k)) := by
  choose c' hc' using hc
  choose e' he' using he
  obtain rfl : c = fun d => (c' d : EReal) := funext hc'
  obtain rfl : e = fun d => (e' d : EReal) := funext he'
  simp only [← EReal.coe_mul, coe_sum] at hsc hse ⊢
  have hsc' : 0 < ∑ d, c' d * c' d := by exact_mod_cast hsc
  have hse' : 0 < ∑ d, e' d * e' d := by exact_mod_cast hse
  have hrc : Real.sqrt (∑ d, c' d * c' d) ≠ 0 := (Real.sqrt_pos.mpr hsc').ne'
  have hre : Real.sqrt (∑ d, e' d * e' d) ≠ 0 := (Real.sqrt_pos.mpr hse').ne'
  rw [Ideal.rsqrt_coe, Ideal.rsqrt_coe, if_neg (not_lt.mpr hsc'.le), if_neg hsc'.ne', if_neg (not_lt.mpr hse'.le),
    if_neg hse'.ne', Ideal.sqrt_coe, Ideal.sqrt_coe, if_neg (not_lt.mpr hsc'.le), if_neg (not_lt.mpr hse'.le)]
  simp only [Ideal.div_coe hrc, Ideal.div_coe hre, ← EReal.coe_mul, coe_sum]
  congr 1
  rw [Finset.sum_mul, Finset.sum_mul]
  refine Finset.sum_congr rfl fun d _ => ?_
  ring

end Cert.CosineLoss
-- ==== Proof.lean ====
/-
  The cosine loss `1 - mean_r cos(cxr_r, ehr_r)` over f32[16384, 2048] inputs, two ways.

  The kernel walks 32 blocks of 512 rows. In a block it forms, per row, the three sums over the 2048 columns
  `∑ c·c`, `∑ e·e`, `∑ c·e`, the row's cosine as `(∑ c·e) · rsqrt(∑ c·c) · rsqrt(∑ e·e)`, and adds the block's 512 cosines
  to a [1, 1] accumulator that the first block resets; the host then divides by 16384 and subtracts from 1.
  The reference normalises each row by its Euclidean norm, `e / √(∑ e·e)` and `c / √(∑ c·c)`, sums the products over the
  columns, sums the rows, divides by 16384 and subtracts from 1.

  Precondition: every entry of both inputs is finite, and no row of either input is all zero (each row's sum of squares
  is positive). On a zero row the reference divides zero by zero; with positive sums of squares both programs compute, on
  the extended reals, real numbers, and one row's cosine is one real number in both spellings (RowCosine.lean). The
  accumulator after the last block is the sum of all 16384 row cosines (BlockSum.lean regroups 32 × 512 = 16384), which is
  the reference's double sum; both programs end with the same two host operations on that number.
-/
import proofs.«181780_j17540646437710_1_alg».proof.Defs
import proofs.«181780_j17540646437710_1_alg».proof.Proof.Gen.Kernel.Frame
import proofs.«181780_j17540646437710_1_alg».proof.Proof.Gen.Pre_finite_inputs
import proofs.«181780_j17540646437710_1_alg».proof.Proof.KernelSum
import proofs.«181780_j17540646437710_1_alg».proof.Proof.RefValue
import proofs.«181780_j17540646437710_1_alg».proof.Proof.PreFacts
import proofs.«181780_j17540646437710_1_alg».proof.Proof.RowCosine

noncomputable section

namespace Cert.Proof

open Idealize.ShloMosaic Idealize.ShloMosaic.TcCoe Idealize.SL.Sem Idealize.ShloMosaic.ValueIdx

/-- The word-level kernel runs to the end without a fault and leaves its arguments as they were. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Row by row the kernel's cosine and the reference's are one real number, so the two sums over the rows agree. -/
theorem rows_agree (X Y : FVec Ideal Cert.KernelIdeal.S16384x2048 .f32)
    (hpre : Cert.Pre_finite_inputs.fn (F := Ideal) X Y = fun _ => 1#1) :
    ∑ r : Fin 16384, Cert.KernelIdeal.Accum.rowTerm X Y r = ∑ r : Fin 16384, Cert.ReferenceIdeal.RowForm.refRow X Y r := by
  obtain ⟨hX, hY, hsX, hsY⟩ := Cert.CosineLoss.of_pre X Y hpre
  refine Finset.sum_congr rfl fun r _ => ?_
  exact Cert.CosineLoss.row_cosine (fun d => X (ix2 r d)) (fun d => Y (ix2 r d)) (fun d => hX _) (fun d => hY _)
    (hsX r) (hsY r)

/-- From memories that agree on the two inputs, under the precondition: the kernel ends at `1 - S/16384` with `S` the sum
    of the 16384 row cosines in its spelling, the reference at `1 - S'/16384` with `S'` the sum in its own; `S' = S`
    (`rows_agree`), and the two closing host operations are the same on both sides. -/
theorem algebraic : Cert.algebraic_KernelIdeal_ReferenceIdeal := by
  intro m ρ m' ρ' hpre hagree
  refine ⟨fun c => Cert.KernelIdeal.Accum.result m c, Cert.KernelIdeal.Accum.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v10_eq]
  have core : Cert.ReferenceIdeal.Read.val_main_v8 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
      = shapeCast Cert.KernelIdeal.S_ (Cert.KernelIdeal.Accum.total m c) Cert.KernelIdeal.Facts₀.shapeCasts_S1x1_S_ := by
    funext i
    rw [Cert.ReferenceIdeal.RowForm.sum_apply, Cert.KernelIdeal.Accum.scalar_apply]
    exact (rows_agree _ _ (hpre c)).symm
  exact congrArg (fun s => subf (constant Cert.KernelIdeal.S_ .f32 0x3F800000#32)
    (Host.divf s (constant Cert.KernelIdeal.S_ .f32 0x46800000#32))) core

/-- The five conjuncts; the idealization rewrote nothing, so there is nothing to preserve. -/
theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
